-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2 : Shape := ⟨3, ![4, 2048, 2]⟩
abbrev S8x1024x3072 : Shape := ⟨3, ![8, 1024, 3072]⟩
abbrev S8x3072x1024 : Shape := ⟨3, ![8, 3072, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x2 : S_.BroadcastsInDim S4x2048x2 (![] : Fin 0 → Fin S4x2048x2.rank)
  reducesTo_S4x2048x2_S_d0_1_2 : S4x2048x2.ReducesTo [0, 1, 2] S_
  bcast_S_S8x1024x3072 : S_.BroadcastsInDim S8x1024x3072 (![] : Fin 0 → Fin S8x1024x3072.rank)
  reducesTo_S8x1024x3072_S_d0_1_2 : S8x1024x3072.ReducesTo [0, 1, 2] S_
  bcast_S_S8x3072x1024 : S_.BroadcastsInDim S8x3072x1024 (![] : Fin 0 → Fin S8x3072x1024.rank)
  reducesTo_S8x3072x1024_S_d0_1_2 : S8x3072x1024.ReducesTo [0, 1, 2] S_

variable [Facts]

def fn_part1 {F : FTy → Type} [FloatOps F] (main_v13 : IVec S_ 1) (main_v16 : IVec S8x3072x1024 1) : IVec S_ 1 :=
  let main_c_5 : IVec S_ 1 := constantI S_ 1 1#1
  let main_v17 : IVec S_ 1 := (fun x v => Host.reduce IntOp.andi x v reducesTo_S8x3072x1024_S_d0_1_2 h_S_) main_v16 main_c_5
  let main_v18 : IVec S_ 1 := andi main_v13 main_v17
  main_v18

def fn {F : FTy → Type} [FloatOps F] (main_arg0 : FVec F S4x2048x1024 .f32) (main_arg1 : IVec S4x2048x2 32) (main_arg2 : FVec F S4x2048x2 .f32) (main_arg3 : FVec F S8x1024x3072 .f32) (main_arg4 : FVec F S8x3072x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x2 .f32 := Host.absf main_arg2
  let main_cst_0 : FVec F S_ .f32 := constant S_ .f32 0x7F800000#32
  let main_v5 : FVec F S4x2048x2 .f32 := broadcastInDim S4x2048x2 ![] bcast_S_S4x2048x2 main_cst_0
  let main_v6 : IVec S4x2048x2 1 := cmpf .olt main_v4 main_v5
  let main_c_1 : IVec S_ 1 := constantI S_ 1 1#1
  let main_v7 : IVec S_ 1 := (fun x v => Host.reduce IntOp.andi x v reducesTo_S4x2048x2_S_d0_1_2 h_S_) main_v6 main_c_1
  let main_v8 : IVec S_ 1 := andi main_v3 main_v7
  let main_v9 : FVec F S8x1024x3072 .f32 := Host.absf main_arg3
  let main_cst_2 : FVec F S_ .f32 := constant S_ .f32 0x7F800000#32
  let main_v10 : FVec F S8x1024x3072 .f32 := broadcastInDim S8x1024x3072 ![] bcast_S_S8x1024x3072 main_cst_2
  let main_v11 : IVec S8x1024x3072 1 := cmpf .olt main_v9 main_v10
  let main_c_3 : IVec S_ 1 := constantI S_ 1 1#1
  let main_v12 : IVec S_ 1 := (fun x v => Host.reduce IntOp.andi x v reducesTo_S8x1024x3072_S_d0_1_2 h_S_) main_v11 main_c_3
  let main_v13 : IVec S_ 1 := andi main_v8 main_v12
  let main_v14 : FVec F S8x3072x1024 .f32 := Host.absf main_arg4
  let main_cst_4 : FVec F S_ .f32 := constant S_ .f32 0x7F800000#32
  let main_v15 : FVec F S8x3072x1024 .f32 := broadcastInDim S8x3072x1024 ![] bcast_S_S8x3072x1024 main_cst_4
  let main_v16 : IVec S8x3072x1024 1 := cmpf .olt main_v14 main_v15
  fn_part1 (F := F) main_v13 main_v16
-- ==== Kernel.lean ====
abbrev S4x2048x1024 : Shape := ⟨3, ![4, 2048, 1024]⟩
abbrev S4x2048x2 : Shape := ⟨3, ![4, 2048, 2]⟩
abbrev S8x1024x3072 : Shape := ⟨3, ![8, 1024, 3072]⟩
abbrev S8x3072x1024 : Shape := ⟨3, ![8, 3072, 1024]⟩
abbrev S8192x1024 : Shape := ⟨2, ![8192, 1024]⟩
abbrev S8192x2 : Shape := ⟨2, ![8192, 2]⟩
abbrev S256x1024 : Shape := ⟨2, ![256, 1024]⟩
abbrev S256x2 : Shape := ⟨2, ![256, 2]⟩
abbrev S1x1024x3072 : Shape := ⟨3, ![1, 1024, 3072]⟩
abbrev S1x3072x1024 : Shape := ⟨3, ![1, 3072, 1024]⟩
abbrev S256 : Shape := ⟨1, ![256]⟩
abbrev S256x1 : Shape := ⟨2, ![256, 1]⟩
abbrev S1024x3072 : Shape := ⟨2, ![1024, 3072]⟩
abbrev S256x3072 : Shape := ⟨2, ![256, 3072]⟩
abbrev S3072x1024 : Shape := ⟨2, ![3072, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2, .i32⟩
  | .hbm, ⟨2, _⟩ => ⟨S4x2048x2, .f32⟩
  | .hbm, ⟨3, _⟩ => ⟨S8x1024x3072, .f32⟩
  | .hbm, ⟨4, _⟩ => ⟨S8x3072x1024, .f32⟩
  | .hbm, ⟨5, _⟩ => ⟨S8192x1024, .f32⟩
  | .hbm, ⟨6, _⟩ => ⟨S8192x2, .i32⟩
  | .hbm, ⟨7, _⟩ => ⟨S8192x2, .f32⟩
  | .hbm, ⟨8, _⟩ => ⟨S8x1024x3072, .bf16⟩
  | .hbm, ⟨9, _⟩ => ⟨S8x3072x1024, .bf16⟩
  | .hbm, ⟨10, _⟩ => ⟨S8192x1024, .f32⟩
  | .hbm, ⟨11, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S256x2, .i32⟩
  | .local _ .vmem, ⟨3, _⟩ => ⟨S256x2, .i32⟩
  | .local _ .vmem, ⟨4, _⟩ => ⟨S256x2, .f32⟩
  | .local _ .vmem, ⟨5, _⟩ => ⟨S256x2, .f32⟩
  | .local _ .vmem, ⟨6, _⟩ => ⟨S1x1024x3072, .bf16⟩
  | .local _ .vmem, ⟨7, _⟩ => ⟨S1x1024x3072, .bf16⟩
  | .local _ .vmem, ⟨8, _⟩ => ⟨S1x3072x1024, .bf16⟩
  | .local _ .vmem, ⟨9, _⟩ => ⟨S1x3072x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_19 : BitVec 32 := 0#32
  let v32 : BitVec 1 := Scalar.cmpi .ne v31 c0_i32_19
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x3072x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x2048x1024_S8192x1024 : S4x2048x1024.ShapeCasts S8192x1024
  shapeCasts_S4x2048x2_S8192x2 : S4x2048x2.ShapeCasts S8192x2
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2_S256x2_0_0 : ∀ a, (![0, 0] : Fin 2 → Nat) a + S256x2.size a ≤ S256x2.size a
  h_S256x2 : 0 < S256x2.numel
  shapeCasts_S256x2_S256x2 : S256x2.ShapeCasts S256x2
  reduces_S256x2_S256 : S256x2.Reduces [1] S256
  shapeCasts_S256_S256x1 : S256.ShapeCasts S256x1
  inb_S1x1024x3072_S1x1024x3072_0_0_0 : ∀ a, (![0, 0, 0] : Fin 3 → Nat) a + S1x1024x3072.size a ≤ S1x1024x3072.size a
  h_S1x1024x3072 : 0 < S1x1024x3072.numel
  shapeCasts_S1x1024x3072_S1024x3072 : S1x1024x3072.ShapeCasts S1024x3072
  inb_S1x3072x1024_S1x3072x1024_0_0_0 : ∀ a, (![0, 0, 0] : Fin 3 → Nat) a + S1x3072x1024.size a ≤ S1x3072x1024.size a
  h_S1x3072x1024 : 0 < S1x3072x1024.numel
  shapeCasts_S1x3072x1024_S3072x1024 : S1x3072x1024.ShapeCasts S3072x1024
  broadcasts_S256x1_S256x1024 : S256x1.Broadcasts S256x1024
  shapeCasts_S8192x1024_S4x2048x1024 : S8192x1024.ShapeCasts S4x2048x1024
  dot_S256x1024_S1024x3072_S256x3072_1_0_0_1_n_n_wf : DotDims.WF S256x1024 S1024x3072 S256x3072 [1] [0] [0] [1] [] []
  dot_S256x3072_S3072x1024_S256x1024_1_0_0_1_n_n_wf : DotDims.WF S256x3072 S3072x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S8192x2.size a
  hwx0_1 : ∀ i : grid0.Coords, EltTy.bits .i32 = 32 ∨ (Rect.block (s := S8192x2) S256x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2.size a ≤ S8192x2.size a
  hwx0_2 : ∀ i : grid0.Coords, EltTy.bits .f32 = 32 ∨ (Rect.block (s := S8192x2) S256x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x3072.size a ≤ S8x1024x3072.size a
  hwx0_3 : ∀ i : grid0.Coords, EltTy.bits .bf16 = 32 ∨ (Rect.block (s := S8x1024x3072) S1x1024x3072.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3072x1024.size a ≤ S8x3072x1024.size a
  hwx0_4 : ∀ i : grid0.Coords, EltTy.bits .bf16 = 32 ∨ (Rect.block (s := S8x3072x1024) S1x3072x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x3072_S3072x1024_S256x1024_1_0_0_1_n_n : DotDims S256x3072 S3072x1024 S256x1024 where
  lhsContracting := [1]
  rhsContracting := [0]
  lhsNonContracting := [0]
  rhsNonContracting := [1]
  lhsBatch := []
  rhsBatch := []
  wf := dot_S256x3072_S3072x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x3072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x3072x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x2048x2 : Shape := ⟨3, ![4, 2048, 2]⟩
abbrev S8x1024x3072 : Shape := ⟨3, ![8, 1024, 3072]⟩
abbrev S8x3072x1024 : Shape := ⟨3, ![8, 3072, 1024]⟩
abbrev S8192x1024 : Shape := ⟨2, ![8192, 1024]⟩
abbrev S8192x2 : Shape := ⟨2, ![8192, 2]⟩
abbrev S_ : Shape := ⟨0, ![]⟩
abbrev S8192 : Shape := ⟨1, ![8192]⟩
abbrev S1x1024x3072 : Shape := ⟨3, ![1, 1024, 3072]⟩
abbrev S1024x3072 : Shape := ⟨2, ![1024, 3072]⟩
abbrev S8192x3072 : Shape := ⟨2, ![8192, 3072]⟩
abbrev S1x3072x1024 : Shape := ⟨3, ![1, 3072, 1024]⟩
abbrev S3072x1024 : Shape := ⟨2, ![3072, 1024]⟩
abbrev S8192x1 : Shape := ⟨2, ![8192, 1]⟩

abbrev nBuf : Space → Nat
  | .hbm => 155
  | .vmem => 0
  | .smem => 0
  | _ => 0

abbrev hbmTy0_0 (i : Nat) : BufTy := match i % 128 with
  | 0 => ⟨S4x2048x1024, .f32⟩
  | 1 => ⟨S4x2048x2, .i32⟩
  | 2 => ⟨S4x2048x2, .f32⟩
  | 3 => ⟨S8x1024x3072, .f32⟩
  | 4 => ⟨S8x3072x1024, .f32⟩
  | 5 => ⟨S8192x1024, .f32⟩
  | 6 => ⟨S8192x2, .i32⟩
  | 7 => ⟨S8192x2, .f32⟩
  | 8 => ⟨S_, .f32⟩
  | 9 => ⟨S8192x1024, .f32⟩
  | 10 => ⟨S_, .i32⟩
  | 11 => ⟨S8192x2, .i32⟩
  | 12 => ⟨S8192x2, .i1⟩
  | 13 => ⟨S_, .f32⟩
  | 14 => ⟨S8192x2, .f32⟩
  | 15 => ⟨S8192x2, .f32⟩
  | 16 => ⟨S_, .f32⟩
  | 17 => ⟨S8192, .f32⟩
  | 18 => ⟨S1x1024x3072, .f32⟩
  | 19 => ⟨S1024x3072, .f32⟩
  | 20 => ⟨S8192x3072, .f32⟩
  | 21 => ⟨S1x3072x1024, .f32⟩
  | 22 => ⟨S3072x1024, .f32⟩
  | 23 => ⟨S8192x1024, .f32⟩
  | 24 => ⟨S8192x1, .f32⟩
  | 25 => ⟨S8192x1024, .f32⟩
  | 26 => ⟨S8192x1024, .f32⟩
  | 27 => ⟨S8192x1024, .f32⟩
  | 28 => ⟨S_, .i32⟩
  | 29 => ⟨S8192x2, .i32⟩
  | 30 => ⟨S8192x2, .i1⟩
  | 31 => ⟨S_, .f32⟩
  | 32 => ⟨S8192x2, .f32⟩
  | 33 => ⟨S8192x2, .f32⟩
  | 34 => ⟨S_, .f32⟩
  | 35 => ⟨S8192, .f32⟩
  | 36 => ⟨S1x1024x3072, .f32⟩
  | 37 => ⟨S1024x3072, .f32⟩
  | 38 => ⟨S8192x3072, .f32⟩
  | 39 => ⟨S1x3072x1024, .f32⟩
  | 40 => ⟨S3072x1024, .f32⟩
  | 41 => ⟨S8192x1024, .f32⟩
  | 42 => ⟨S8192x1, .f32⟩
  | 43 => ⟨S8192x1024, .f32⟩
  | 44 => ⟨S8192x1024, .f32⟩
  | 45 => ⟨S8192x1024, .f32⟩
  | 46 => ⟨S_, .i32⟩
  | 47 => ⟨S8192x2, .i32⟩
  | 48 => ⟨S8192x2, .i1⟩
  | 49 => ⟨S_, .f32⟩
  | 50 => ⟨S8192x2, .f32⟩
  | 51 => ⟨S8192x2, .f32⟩
  | 52 => ⟨S_, .f32⟩
  | 53 => ⟨S8192, .f32⟩
  | 54 => ⟨S1x1024x3072, .f32⟩
  | 55 => ⟨S1024x3072, .f32⟩
  | 56 => ⟨S8192x3072, .f32⟩
  | 57 => ⟨S1x3072x1024, .f32⟩
  | 58 => ⟨S3072x1024, .f32⟩
  | 59 => ⟨S8192x1024, .f32⟩
  | 60 => ⟨S8192x1, .f32⟩
  | 61 => ⟨S8192x1024, .f32⟩
  | 62 => ⟨S8192x1024, .f32⟩
  | 63 => ⟨S8192x1024, .f32⟩
  | 64 => ⟨S_, .i32⟩
  | 65 => ⟨S8192x2, .i32⟩
  | 66 => ⟨S8192x2, .i1⟩
  | 67 => ⟨S_, .f32⟩
  | 68 => ⟨S8192x2, .f32⟩
  | 69 => ⟨S8192x2, .f32⟩
  | 70 => ⟨S_, .f32⟩
  | 71 => ⟨S8192, .f32⟩
  | 72 => ⟨S1x1024x3072, .f32⟩
  | 73 => ⟨S1024x3072, .f32⟩
  | 74 => ⟨S8192x3072, .f32⟩
  | 75 => ⟨S1x3072x1024, .f32⟩
  | 76 => ⟨S3072x1024, .f32⟩
  | 77 => ⟨S8192x1024, .f32⟩
  | 78 => ⟨S8192x1, .f32⟩
  | 79 => ⟨S8192x1024, .f32⟩
  | 80 => ⟨S8192x1024, .f32⟩
  | 81 => ⟨S8192x1024, .f32⟩
  | 82 => ⟨S_, .i32⟩
  | 83 => ⟨S8192x2, .i32⟩
  | 84 => ⟨S8192x2, .i1⟩
  | 85 => ⟨S_, .f32⟩
  | 86 => ⟨S8192x2, .f32⟩
  | 87 => ⟨S8192x2, .f32⟩
  | 88 => ⟨S_, .f32⟩
  | 89 => ⟨S8192, .f32⟩
  | 90 => ⟨S1x1024x3072, .f32⟩
  | 91 => ⟨S1024x3072, .f32⟩
  | 92 => ⟨S8192x3072, .f32⟩
  | 93 => ⟨S1x3072x1024, .f32⟩
  | 94 => ⟨S3072x1024, .f32⟩
  | 95 => ⟨S8192x1024, .f32⟩
  | 96 => ⟨S8192x1, .f32⟩
  | 97 => ⟨S8192x1024, .f32⟩
  | 98 => ⟨S8192x1024, .f32⟩
  | 99 => ⟨S8192x1024, .f32⟩
  | 100 => ⟨S_, .i32⟩
  | 101 => ⟨S8192x2, .i32⟩
  | 102 => ⟨S8192x2, .i1⟩
  | 103 => ⟨S_, .f32⟩
  | 104 => ⟨S8192x2, .f32⟩
  | 105 => ⟨S8192x2, .f32⟩
  | 106 => ⟨S_, .f32⟩
  | 107 => ⟨S8192, .f32⟩
  | 108 => ⟨S1x1024x3072, .f32⟩
  | 109 => ⟨S1024x3072, .f32⟩
  | 110 => ⟨S8192x3072, .f32⟩
  | 111 => ⟨S1x3072x1024, .f32⟩
  | 112 => ⟨S3072x1024, .f32⟩
  | 113 => ⟨S8192x1024, .f32⟩
  | 114 => ⟨S8192x1, .f32⟩
  | 115 => ⟨S8192x1024, .f32⟩
  | 116 => ⟨S8192x1024, .f32⟩
  | 117 => ⟨S8192x1024, .f32⟩
  | 118 => ⟨S_, .i32⟩
  | 119 => ⟨S8192x2, .i32⟩
  | 120 => ⟨S8192x2, .i1⟩
  | 121 => ⟨S_, .f32⟩
  | 122 => ⟨S8192x2, .f32⟩
  | 123 => ⟨S8192x2, .f32⟩
  | 124 => ⟨S_, .f32⟩
  | 125 => ⟨S8192, .f32⟩
  | 126 => ⟨S1x1024x3072, .f32⟩
  | 127 => ⟨S1024x3072, .f32⟩
  | _ => ⟨S4x2048x1024, .f32⟩

abbrev hbmTy0_1 (i : Nat) : BufTy := match i % 128 with
  | 0 => ⟨S8192x3072, .f32⟩
  | 1 => ⟨S1x3072x1024, .f32⟩
  | 2 => ⟨S3072x1024, .f32⟩
  | 3 => ⟨S8192x1024, .f32⟩
  | 4 => ⟨S8192x1, .f32⟩
  | 5 => ⟨S8192x1024, .f32⟩
  | 6 => ⟨S8192x1024, .f32⟩
  | 7 => ⟨S8192x1024, .f32⟩
  | 8 => ⟨S_, .i32⟩
  | 9 => ⟨S8192x2, .i32⟩
  | 10 => ⟨S8192x2, .i1⟩
  | 11 => ⟨S_, .f32⟩
  | 12 => ⟨S8192x2, .f32⟩
  | 13 => ⟨S8192x2, .f32⟩
  | 14 => ⟨S_, .f32⟩
  | 15 => ⟨S8192, .f32⟩
  | 16 => ⟨S1x1024x3072, .f32⟩
  | 17 => ⟨S1024x3072, .f32⟩
  | 18 => ⟨S8192x3072, .f32⟩
  | 19 => ⟨S1x3072x1024, .f32⟩
  | 20 => ⟨S3072x1024, .f32⟩
  | 21 => ⟨S8192x1024, .f32⟩
  | 22 => ⟨S8192x1, .f32⟩
  | 23 => ⟨S8192x1024, .f32⟩
  | 24 => ⟨S8192x1024, .f32⟩
  | 25 => ⟨S8192x1024, .f32⟩
  | 26 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_11 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_14 : Ref sig .tc := ⟨.hbm, 100, rfl⟩
abbrev main_v79 : Ref sig .tc := ⟨.hbm, 101, rfl⟩
abbrev main_v80 : Ref sig .tc := ⟨.hbm, 102, rfl⟩
abbrev main_cst_15 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_c_17 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_cst_19 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_c_20 : Ref sig .tc := ⟨.hbm, 136, rfl⟩
abbrev main_v109 : Ref sig .tc := ⟨.hbm, 137, rfl⟩
abbrev main_v110 : Ref sig .tc := ⟨.hbm, 138, rfl⟩
abbrev main_cst_21 : Ref sig .tc := ⟨.hbm, 139, rfl⟩
abbrev main_v111 : Ref sig .tc := ⟨.hbm, 140, rfl⟩
abbrev main_v112 : Ref sig .tc := ⟨.hbm, 141, rfl⟩
abbrev main_cst_22 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩

abbrev nD : Nat := 1
abbrev τ : Topo := Topo.v7x

variable {F : FTy → Type} [FloatOps F]

class Facts₀ : Prop where
  shapeCasts_S4x2048x1024_S8192x1024 : S4x2048x1024.ShapeCasts S8192x1024
  shapeCasts_S4x2048x2_S8192x2 : S4x2048x2.ShapeCasts S8192x2
  bcast_S_S8192x1024 : S_.BroadcastsInDim S8192x1024 (![] : Fin 0 → Fin S8192x1024.rank)
  bcast_S_S8192x2 : S_.BroadcastsInDim S8192x2 (![] : Fin 0 → Fin S8192x2.rank)
  reducesTo_S8192x2_S8192_d1 : S8192x2.ReducesTo [1] S8192
  h_S_ : 0 < S_.numel
  slices_S8x1024x3072_S1x1024x3072_0_0_0 : S8x1024x3072.Slices ![0, 0, 0] S1x1024x3072
  shapeCasts_S1x1024x3072_S1024x3072 : S1x1024x3072.ShapeCasts S1024x3072
  slices_S8x3072x1024_S1x3072x1024_0_0_0 : S8x3072x1024.Slices ![0, 0, 0] S1x3072x1024
  shapeCasts_S1x3072x1024_S3072x1024 : S1x3072x1024.ShapeCasts S3072x1024
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S8x1024x3072_S1x1024x3072_1_0_0 : S8x1024x3072.Slices ![1, 0, 0] S1x1024x3072
  slices_S8x3072x1024_S1x3072x1024_1_0_0 : S8x3072x1024.Slices ![1, 0, 0] S1x3072x1024
  slices_S8x1024x3072_S1x1024x3072_2_0_0 : S8x1024x3072.Slices ![2, 0, 0] S1x1024x3072
  slices_S8x3072x1024_S1x3072x1024_2_0_0 : S8x3072x1024.Slices ![2, 0, 0] S1x3072x1024
  slices_S8x1024x3072_S1x1024x3072_3_0_0 : S8x1024x3072.Slices ![3, 0, 0] S1x1024x3072
  slices_S8x3072x1024_S1x3072x1024_3_0_0 : S8x3072x1024.Slices ![3, 0, 0] S1x3072x1024
  slices_S8x1024x3072_S1x1024x3072_4_0_0 : S8x1024x3072.Slices ![4, 0, 0] S1x1024x3072
  slices_S8x3072x1024_S1x3072x1024_4_0_0 : S8x3072x1024.Slices ![4, 0, 0] S1x3072x1024
  slices_S8x1024x3072_S1x1024x3072_5_0_0 : S8x1024x3072.Slices ![5, 0, 0] S1x1024x3072
  slices_S8x3072x1024_S1x3072x1024_5_0_0 : S8x3072x1024.Slices ![5, 0, 0] S1x3072x1024
  slices_S8x1024x3072_S1x1024x3072_6_0_0 : S8x1024x3072.Slices ![6, 0, 0] S1x1024x3072
  slices_S8x3072x1024_S1x3072x1024_6_0_0 : S8x3072x1024.Slices ![6, 0, 0] S1x3072x1024
  slices_S8x1024x3072_S1x1024x3072_7_0_0 : S8x1024x3072.Slices ![7, 0, 0] S1x1024x3072
  slices_S8x3072x1024_S1x3072x1024_7_0_0 : S8x3072x1024.Slices ![7, 0, 0] S1x3072x1024
  shapeCasts_S8192x1024_S4x2048x1024 : S8192x1024.ShapeCasts S4x2048x1024
  dot_S8192x1024_S1024x3072_S8192x3072_1_0_0_1_n_n_wf : DotDims.WF S8192x1024 S1024x3072 S8192x3072 [1] [0] [0] [1] [] []
  dot_S8192x3072_S3072x1024_S8192x1024_1_0_0_1_n_n_wf : DotDims.WF S8192x3072 S3072x1024 S8192x1024 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf
def dot_S8192x3072_S3072x1024_S8192x1024_1_0_0_1_n_n : DotDims S8192x3072 S3072x1024 S8192x1024 where
  lhsContracting := [1]
  rhsContracting := [0]
  lhsNonContracting := [0]
  rhsNonContracting := [1]
  lhsBatch := []
  rhsBatch := []
  wf := dot_S8192x3072_S3072x1024_S8192x1024_1_0_0_1_n_n_wf

class Facts : Prop extends Facts₀ where

variable [Facts]
-- ==== Proof.MoeSpec.lean ====
/-
  The mathematics both programs compute, stated once over plain functions on the extended reals.

  A token's row `x` (length H) goes through one expert's two matrices, `U` (H × D) and `W` (D × N):
  column `j` of the result is `Σₖ (Σₗ x l · U l k) · W k j`. The token carries K routes, each an expert number
  and a weight; its combined weight for the expert numbered `e` is the sum of the weights of the routes that
  name `e` (a route naming another expert contributes the zero word). One expert's contribution to the output is the
  product of the two, and the output is the experts' contributions added in expert order onto the zero word:
  `(((0 + c₀) + c₁) + …) + c₇`.
-/
import Idealize.ShloMosaic.PureOps.Ideal.Laws
import Idealize.ShloMosaic.Lib.ValueIdx

noncomputable section

open scoped BigOperators

namespace Cert.Moe

open Idealize.ShloMosaic Idealize.ShloMosaic.ValueIdx

/-- The zero word both programs start their accumulators from and put where a route names another expert. -/
abbrev zeroWord : EReal := Ideal.ofBits .f32 0x00000000#32

/-- One token's row through one expert: `Σₖ (Σₗ x l · U l k) · W k j`. -/
def expertOut {H D N : ℕ} (x : Fin H → EReal) (U : Fin H → Fin D → EReal) (W : Fin D → Fin N → EReal) (j : Fin N) : EReal :=
  ∑ k : Fin D, (∑ l : Fin H, x l * U l k) * W k j

/-- One token's combined routing weight for the expert numbered `e`: the weights of the routes naming `e`, added. -/
def gateSum {K : ℕ} (ids : Fin K → BitVec 32) (ws : Fin K → EReal) (e : BitVec 32) : EReal :=
  ∑ q : Fin K, Scalar.select (IntOp.cmpi .eq (ids q) e) (ws q) zeroWord

/-- One expert's contribution to one output element. -/
def contrib {H D N K : ℕ} (x : Fin H → EReal) (U : Fin H → Fin D → EReal) (W : Fin D → Fin N → EReal)
    (ids : Fin K → BitVec 32) (ws : Fin K → EReal) (e : BitVec 32) (j : Fin N) : EReal :=
  expertOut x U W j * gateSum ids ws e

section Whole

variable (xs : (⟨2, ![8192, 1024]⟩ : Shape).Idx → EReal) (ids : (⟨2, ![8192, 2]⟩ : Shape).Idx → BitVec 32)
  (ws : (⟨2, ![8192, 2]⟩ : Shape).Idx → EReal) (up : (⟨3, ![8, 1024, 3072]⟩ : Shape).Idx → EReal)
  (dn : (⟨3, ![8, 3072, 1024]⟩ : Shape).Idx → EReal)

/-- Expert `e`'s contribution to token `t`'s output column `j`, over the whole arrays. -/
def term (e : Fin 8) (t : Fin 8192) (j : Fin 1024) : EReal :=
  contrib (fun l : Fin 1024 => xs (ix2 t l)) (fun (l : Fin 1024) (k : Fin 3072) => up (ix3 e l k))
    (fun (k : Fin 3072) (j : Fin 1024) => dn (ix3 e k j)) (fun q : Fin 2 => ids (ix2 t q)) (fun q : Fin 2 => ws (ix2 t q))
    (BitVec.ofNat 32 e.val) j

/-- The first `n` experts' contributions added in order onto the zero word. -/
def partialOut : (n : ℕ) → n ≤ 8 → Fin 8192 → Fin 1024 → EReal
  | 0, _ => fun _ _ => zeroWord
  | n + 1, h => fun t j => partialOut n (Nat.le_of_succ_le h) t j + term xs ids ws up dn ⟨n, h⟩ t j

theorem partialOut_succ (n : ℕ) (h : n + 1 ≤ 8) (t : Fin 8192) (j : Fin 1024) :
    partialOut xs ids ws up dn (n + 1) h t j
      = partialOut xs ids ws up dn n (Nat.le_of_succ_le h) t j + term xs ids ws up dn ⟨n, h⟩ t j := rfl

/-- The output as a two-axis array: all eight experts. -/
def out2 : (⟨2, ![8192, 1024]⟩ : Shape).Idx → EReal := fun i => partialOut xs ids ws up dn 8 (Nat.le_refl 8) (i 0) (i 1)

end Whole

end Cert.Moe

end
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.LibRowSums.lean ====
/-
  Row sums kept as a column, read at coordinates.

  `jnp.sum(x, axis=-1, keepdims=True)` of an `a × b` matrix is a lane reduction into a vector of length `a`,
  recast as an `a × 1` column; a kernel then either broadcasts the column along the rows of an `a × c`
  matrix, or transposes it to a `1 × a` row first. Read on the extended reals at explicit coordinates:
  the reduction at `p` is `Σₖ x[p, k]` over `k : Fin b`; the column at `(p, u)` is the vector at `p`; the
  column broadcast at `(p, q)` is the column at `(p, 0)`.
-/
import Idealize.ShloMosaic.PureOps.Ideal.Laws
import Idealize.ShloMosaic.Lib.ValueIdx
import Idealize.ShloMosaic.Lib.Pipeline.Value

noncomputable section

open scoped BigOperators

namespace Idealize.ShloMosaic.RowSums

open Idealize.ShloMosaic Idealize.ShloMosaic.ValueIdx

variable {α : Type}

/-- A length-`a` vector recast as an `a × 1` column reads, at `(p, u)`, the vector at `p`: both sit at
    row-major position `p`, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast along the rows of an `a × c` matrix reads, at `(p, q)`, the column at `(p, 0)`. -/
theorem broadcastTo_a1_ac_apply {a c : ℕ} (v : (⟨2, ![a, 1]⟩ : Shape).Idx → α) (h : (⟨2, ![a, 1]⟩ : Shape).Broadcasts ⟨2, ![a, c]⟩)
    (p : Fin a) (q : Fin c) : broadcastTo ⟨2, ![a, c]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A lane reduction by `+` from the zero word of an `a × b` matrix over its second axis reads, at `p`, the sum
    `Σₖ x[p, k]` over `k : Fin b`: the index lifted from `p` with `k` inserted on the reduced axis is `(p, k)`. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x (funext fun d => Fin.ext ?_)
  match d with
  | ⟨0, _⟩ => rfl
  | ⟨1, _⟩ => rfl

end Idealize.ShloMosaic.RowSums

end
-- ==== Proof.KerPayload.lean ====
/-
  The kernel body's arithmetic at one element of its [256, 1024] accumulator block.

  At a grid point the body reads a 256-token block `x`, the tokens' routes (`ids`, `ws`), one expert's two
  matrices (as [1, 1024, 3072] and [1, 3072, 1024] blocks) and the accumulator `acc`, and stores
  `acc + ((x · U) · W) ∘ (gate broadcast along the row)`. Read on the extended reals at row `p`, column `j`
  (changes of float format are the identity, a matrix product into zeros is a plain sum, the lane reduction a sum
  over the two routes): the accumulator's element plus the token's contribution from this expert, whose number is
  the grid's second coordinate.
-/
import proofs.«176671_j46145128628717_1_alg».proof.Proof.Gen.KernelIdeal.Skeleton
import proofs.«176671_j46145128628717_1_alg».proof.Proof.MoeSpec
import proofs.«176671_j46145128628717_1_alg».proof.Proof.LibPlainDot
import proofs.«176671_j46145128628717_1_alg».proof.Proof.LibRowSums
import Idealize.ShloMosaic.Lib.Pipeline.Value
import Idealize.ShloMosaic.Lib.ValueLayout

noncomputable section

open scoped BigOperators

namespace Cert.KernelIdeal.Payload

open Cert.KernelIdeal Cert.KernelIdeal.Gen Idealize.ShloMosaic Idealize.ShloMosaic.ValueIdx

/-- The block the reset stores is the zero word everywhere. -/
theorem pay1_apply (y : S256x1024.Idx) : k0_pay1 (F := Ideal) y = Cert.Moe.zeroWord := by
  unfold k0_pay1
  simp only [shapeCast_self]
  rfl

/-- The accumulating store's value at row `p`, column `j`. -/
theorem pay2_apply (i : grid0.Coords) (ids : Vec Ideal S256x2 .i32) (ws : Vec Ideal S256x2 .f32) (x : Vec Ideal S256x1024 .f32)
    (U : Vec Ideal S1x1024x3072 .bf16) (W : Vec Ideal S1x3072x1024 .bf16) (acc : Vec Ideal S256x1024 .f32) (p : Fin 256) (j : Fin 1024) :
    k0_pay2 (F := Ideal) i ids ws x U W acc (ix2 p j)
      = acc (ix2 p j) + Cert.Moe.contrib (fun l : Fin 1024 => x (ix2 p l)) (fun (l : Fin 1024) (k : Fin 3072) => U (ix3 (0 : Fin 1) l k))
          (fun (k : Fin 3072) (j : Fin 1024) => W (ix3 (0 : Fin 1) k j)) (fun q : Fin 2 => ids (ix2 p q)) (fun q : Fin 2 => ws (ix2 p q))
          (BitVec.ofNat 32 (i 1).val) j := by
  unfold k0_pay2
  simp only [shapeCast_self]
  rw [addf_apply, mulf_apply]
  unfold Cert.Moe.contrib
  congr 1
  congr 1
  · -- the two matrix products, each into zeros
    refine (PlainDot.matmul_zero_apply 256 3072 1024 none _ _ p j).trans ?_
    unfold Cert.Moe.expertOut
    refine Finset.sum_congr rfl fun k _ => ?_
    congr 1
    · refine (PlainDot.matmul_zero_apply 256 1024 3072 none _ _ p k).trans ?_
      refine Finset.sum_congr rfl fun l _ => ?_
      congr 1
      exact shapeCast_1ab_ab_apply U shapeCasts_S1x1024x3072_S1024x3072 l k
    · exact shapeCast_1ab_ab_apply W shapeCasts_S1x3072x1024_S3072x1024 k j
  · -- the routes' weights summed along the row, kept as a column, broadcast along the row
    refine (RowSums.broadcastTo_a1_ac_apply _ broadcasts_S256x1_S256x1024 p j).trans ?_
    refine (RowSums.shapeCast_a_a1_apply _ shapeCasts_S256_S256x1 p (0 : Fin 1)).trans ?_
    refine (RowSums.rowSum_apply _ reduces_S256x2_S256 _ _ p).trans ?_
    unfold Cert.Moe.gateSum
    exact Finset.sum_congr rfl fun q _ => rfl

end Cert.KernelIdeal.Payload

end
-- ==== Proof.KerPieces.lean ====
/-
  What each control case of the kernel body leaves behind, as values.

  The body runs in three cases, by the expert coordinate of the grid point: the first expert (the accumulator is
  reset to zeros, then the first contribution is added onto the zeros just stored), a middle expert (the contribution is
  added onto what the point before left), and the last expert (the same, and the accumulator is then copied to the
  output block). In every case the accumulator ends at the accumulating store's value, over the zero block in the
  first case and over the previous contents otherwise; in the last case the output block holds that same value.
-/
import proofs.«176671_j46145128628717_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle expert: the accumulator ends at the accumulating store's value over the previous contents. -/
theorem acc_B (c : Dev nD) (i : grid0.Coords) (a2 : Memref sig .tc .vmem S256x1024 .f32) (h2 : a2.IsWhole) (a3 : Memref sig .tc .vmem S256x2 .i32) (h3 : a3.IsWhole) (a4 : Memref sig .tc .vmem S256x2 .f32) (h4 : a4.IsWhole) (a5 : Memref sig .tc .vmem S1x1024x3072 .bf16) (h5 : a5.IsWhole) (a6 : Memref sig .tc .vmem S1x3072x1024 .bf16) (h6 : a6.IsWhole) (a7 : Memref sig .tc .vmem S256x1024 .f32) (h7 : a7.IsWhole) (a8 : Memref sig .tc .vmem S256x1024 .f32) (h8 : a8.IsWhole) (hc0 : ¬cond0_0 i) (hc1 : ¬cond0_1 i)
    (x0 : Vec F S256x1024 .f32) (x1 : Vec F S256x2 .i32) (x2 : Vec F S256x2 .f32) (x3 : Vec F S1x1024x3072 .bf16) (x4 : Vec F S1x3072x1024 .bf16) (xs0 : Vec F S256x1024 .f32) :
    sout0_B_0 c i a2 h2 a3 h3 a4 h4 a5 h5 a6 h6 a7 h7 a8 h8 hc0 hc1 x0 x1 x2 x3 x4 xs0 = k0_pay2 i x1 x2 x0 x3 x4 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  rw [View.canon_unit_zero hz2]
  simp only [View.readAt_eq_ld, h2.read_unread, h3.read_unread, h4.read_unread, h5.read_unread, h6.read_unread, h8.read_unread,
    View.ld_unit_zero (S := S256x1024) hz2, View.ld_unit_zero (S := S256x2) hz2, View.ld_unit_zero (S := S1x1024x3072) hz3,
    View.ld_unit_zero (S := S1x3072x1024) hz3, View.readCov_unit_zero (S := S256x1024) _ hz2]

/-- The last expert: the same in the accumulator. -/
theorem acc_C (c : Dev nD) (i : grid0.Coords) (a2 : Memref sig .tc .vmem S256x1024 .f32) (h2 : a2.IsWhole) (a3 : Memref sig .tc .vmem S256x2 .i32) (h3 : a3.IsWhole) (a4 : Memref sig .tc .vmem S256x2 .f32) (h4 : a4.IsWhole) (a5 : Memref sig .tc .vmem S1x1024x3072 .bf16) (h5 : a5.IsWhole) (a6 : Memref sig .tc .vmem S1x3072x1024 .bf16) (h6 : a6.IsWhole) (a7 : Memref sig .tc .vmem S256x1024 .f32) (h7 : a7.IsWhole) (a8 : Memref sig .tc .vmem S256x1024 .f32) (h8 : a8.IsWhole) (hc0 : ¬cond0_0 i) (hc1 : cond0_1 i)
    (x0 : Vec F S256x1024 .f32) (x1 : Vec F S256x2 .i32) (x2 : Vec F S256x2 .f32) (x3 : Vec F S1x1024x3072 .bf16) (x4 : Vec F S1x3072x1024 .bf16) (xs0 : Vec F S256x1024 .f32) :
    sout0_C_0 c i a2 h2 a3 h3 a4 h4 a5 h5 a6 h6 a7 h7 a8 h8 hc0 hc1 x0 x1 x2 x3 x4 xs0 = k0_pay2 i x1 x2 x0 x3 x4 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero hz2]
  simp only [View.readAt_eq_ld, h2.read_unread, h3.read_unread, h4.read_unread, h5.read_unread, h6.read_unread, h8.read_unread,
    View.ld_unit_zero (S := S256x1024) hz2, View.ld_unit_zero (S := S256x2) hz2, View.ld_unit_zero (S := S1x1024x3072) hz3,
    View.ld_unit_zero (S := S1x3072x1024) hz3, View.readCov_unit_zero (S := S256x1024) _ hz2]

/-- The last expert: and in the output block. -/
theorem out_C (c : Dev nD) (i : grid0.Coords) (a2 : Memref sig .tc .vmem S256x1024 .f32) (h2 : a2.IsWhole) (a3 : Memref sig .tc .vmem S256x2 .i32) (h3 : a3.IsWhole) (a4 : Memref sig .tc .vmem S256x2 .f32) (h4 : a4.IsWhole) (a5 : Memref sig .tc .vmem S1x1024x3072 .bf16) (h5 : a5.IsWhole) (a6 : Memref sig .tc .vmem S1x3072x1024 .bf16) (h6 : a6.IsWhole) (a7 : Memref sig .tc .vmem S256x1024 .f32) (h7 : a7.IsWhole) (a8 : Memref sig .tc .vmem S256x1024 .f32) (h8 : a8.IsWhole) (hc0 : ¬cond0_0 i) (hc1 : cond0_1 i)
    (x0 : Vec F S256x1024 .f32) (x1 : Vec F S256x2 .i32) (x2 : Vec F S256x2 .f32) (x3 : Vec F S1x1024x3072 .bf16) (x4 : Vec F S1x3072x1024 .bf16) (xs0 : Vec F S256x1024 .f32) :
    out0_C_5 c i a2 h2 a3 h3 a4 h4 a5 h5 a6 h6 a7 h7 a8 h8 hc0 hc1 x0 x1 x2 x3 x4 xs0 = k0_pay2 i x1 x2 x0 x3 x4 xs0 := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero hz2]
  simp only [View.readAt_eq_ld, h2.read_unread, h3.read_unread, h4.read_unread, h5.read_unread, h6.read_unread, h8.read_unread,
    View.ld_unit_zero (S := S256x1024) hz2, View.ld_unit_zero (S := S256x2) hz2, View.ld_unit_zero (S := S1x1024x3072) hz3,
    View.ld_unit_zero (S := S1x3072x1024) hz3, View.readCov_unit_zero (S := S256x1024) _ hz2]

/-- The first expert: the accumulating store's value over the zero block just stored. -/
theorem acc_A (c : Dev nD) (i : grid0.Coords) (a2 : Memref sig .tc .vmem S256x1024 .f32) (h2 : a2.IsWhole) (a3 : Memref sig .tc .vmem S256x2 .i32) (h3 : a3.IsWhole) (a4 : Memref sig .tc .vmem S256x2 .f32) (h4 : a4.IsWhole) (a5 : Memref sig .tc .vmem S1x1024x3072 .bf16) (h5 : a5.IsWhole) (a6 : Memref sig .tc .vmem S1x3072x1024 .bf16) (h6 : a6.IsWhole) (a7 : Memref sig .tc .vmem S256x1024 .f32) (h7 : a7.IsWhole) (a8 : Memref sig .tc .vmem S256x1024 .f32) (h8 : a8.IsWhole) (hc0 : cond0_0 i) (hc1 : ¬cond0_1 i)
    (x0 : Vec F S256x1024 .f32) (x1 : Vec F S256x2 .i32) (x2 : Vec F S256x2 .f32) (x3 : Vec F S1x1024x3072 .bf16) (x4 : Vec F S1x3072x1024 .bf16) :
    sout0_A_0 c i a2 h2 a3 h3 a4 h4 a5 h5 a6 h6 a7 h7 a8 h8 hc0 hc1 x0 x1 x2 x3 x4 = k0_pay2 i x1 x2 x0 x3 x4 (k0_pay1 (F := F)) := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S256x1024) hz2]
  simp only [View.readAt_eq_ld, h2.read_unread, h3.read_unread, h4.read_unread, h5.read_unread, h6.read_unread, h8.read_unread,
    View.ld_unit_zero (S := S256x1024) hz2, View.ld_unit_zero (S := S256x2) hz2, View.ld_unit_zero (S := S1x1024x3072) hz3,
    View.ld_unit_zero (S := S1x3072x1024) hz3, View.readCov_unit_zero (S := S256x1024) _ hz2]

end Cert.KernelIdeal.Pieces

end
-- ==== Proof.KerBlocks.lean ====
/-
  Where the kernel's blocks sit in the arrays, and what the arrays are.

  The grid has 32 × 8 points, token tile outermost: point `t` works on token tile `t / 8` and expert `t % 8`. Its token
  block (and its two route blocks) is rows `256·(t/8) … 256·(t/8) + 255` of the [8192, ·] arrays; its expert blocks are
  plane `t % 8` of the two [8, ·, ·] weight arrays. The arrays the region finds are the host lines before it applied to
  the arguments: the three reshapes to [8192, ·], and the two changes of float format of the weights.
-/
import proofs.«176671_j46145128628717_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The arrays the region finds -/

theorem V_xs (c : Dev nD) : (V m c main_v0 : S8192x1024.Idx → Elt F .f32)
    = shapeCast S8192x1024 (m ((c.tc : Thread nD τ).loc main_arg0)) shapeCasts_S4x2048x1024_S8192x1024 := by
  show StableHlo.after hostOps0 (fun b => m (c, b)) (Proc.devRef .tc main_v0) = _
  after_results
  rfl

theorem V_ids (c : Dev nD) : (V m c main_v1 : S8192x2.Idx → Elt F .i32)
    = shapeCast S8192x2 (m ((c.tc : Thread nD τ).loc main_arg1)) shapeCasts_S4x2048x2_S8192x2 := by
  show StableHlo.after hostOps0 (fun b => m (c, b)) (Proc.devRef .tc main_v1) = _
  after_results
  rfl

theorem V_ws (c : Dev nD) : (V m c main_v2 : S8192x2.Idx → Elt F .f32)
    = shapeCast S8192x2 (m ((c.tc : Thread nD τ).loc main_arg2)) shapeCasts_S4x2048x2_S8192x2 := by
  show StableHlo.after hostOps0 (fun b => m (c, b)) (Proc.devRef .tc main_v2) = _
  after_results
  rfl

theorem V_up (c : Dev nD) : (V m c main_v3 : S8x1024x3072.Idx → Elt F .bf16)
    = truncf .bf16 (m ((c.tc : Thread nD τ).loc main_arg3)) bitsLt_bf16_f32 := by
  show StableHlo.after hostOps0 (fun b => m (c, b)) (Proc.devRef .tc main_v3) = _
  after_results

theorem V_dn (c : Dev nD) : (V m c main_v4 : S8x3072x1024.Idx → Elt F .bf16)
    = truncf .bf16 (m ((c.tc : Thread nD τ).loc main_arg4)) bitsLt_bf16_f32 := by
  show StableHlo.after hostOps0 (fun b => m (c, b)) (Proc.devRef .tc main_v4) = _
  after_results

/-! ## The blocks -/

/-- The windows' block indices at every grid point: token tile `t / 8` for the token, route and output windows, expert
    `t % 8` for the weight windows; every other coordinate zero. -/
theorem idx_facts : ∀ t : Fin cfg0.N,
    (win0_0.index t 0 = t.val / 8 ∧ win0_0.index t 1 = 0) ∧ (win0_1.index t 0 = t.val / 8 ∧ win0_1.index t 1 = 0)
    ∧ (win0_2.index t 0 = t.val / 8 ∧ win0_2.index t 1 = 0)
    ∧ (win0_3.index t 0 = t.val % 8 ∧ win0_3.index t 1 = 0 ∧ win0_3.index t 2 = 0)
    ∧ (win0_4.index t 0 = t.val % 8 ∧ win0_4.index t 1 = 0 ∧ win0_4.index t 2 = 0)
    ∧ (win0_5.index t 0 = t.val / 8 ∧ win0_5.index t 1 = 0) :=
  (by decide +kernel : ∀ t : Fin grid0.N, _)

/-- The global row of row `p` of point `t`'s token tile. -/
abbrev rowOf (t : Fin cfg0.N) (p : Fin 256) : Fin 8192 :=
  ⟨256 * (t.val / 8) + p.val, by have := t.isLt; have hN : cfg0.N = 256 := N_0; have := p.isLt; omega⟩

/-- The expert of point `t`. -/
abbrev expertOf (t : Fin cfg0.N) : Fin 8 := ⟨t.val % 8, Nat.mod_lt _ (by decide)⟩

theorem xblk_apply (c : Dev nD) (t : Fin cfg0.N) (p : Fin 256) (l : Fin 1024) :
    (iblk m c 0 t : Vec F S256x1024 .f32) (ix2 p l) = (V m c main_v0 : S8192x1024.Idx → Elt F .f32) (ix2 (rowOf t p) l) := by
  unfold iblk
  rw [View.read_apply]
  show V m c main_v0 _ = V m c main_v0 _
  congr 1
  funext a
  apply Fin.ext
  match a with
  | ⟨0, _⟩ => show win0_0.index t 0 * 256 + 1 * p.val = 256 * (t.val / 8) + p.val; rw [(idx_facts t).1.1]; omega
  | ⟨1, _⟩ => show win0_0.index t 1 * 1024 + 1 * l.val = l.val; rw [(idx_facts t).1.2]; omega

theorem idsblk_apply (c : Dev nD) (t : Fin cfg0.N) (p : Fin 256) (q : Fin 2) :
    (iblk m c 1 t : Vec F S256x2 .i32) (ix2 p q) = (V m c main_v1 : S8192x2.Idx → Elt F .i32) (ix2 (rowOf t p) q) := by
  unfold iblk
  rw [View.read_apply]
  show V m c main_v1 _ = V m c main_v1 _
  congr 1
  funext a
  apply Fin.ext
  match a with
  | ⟨0, _⟩ => show win0_1.index t 0 * 256 + 1 * p.val = 256 * (t.val / 8) + p.val; rw [(idx_facts t).2.1.1]; omega
  | ⟨1, _⟩ => show win0_1.index t 1 * 2 + 1 * q.val = q.val; rw [(idx_facts t).2.1.2]; omega

theorem wsblk_apply (c : Dev nD) (t : Fin cfg0.N) (p : Fin 256) (q : Fin 2) :
    (iblk m c 2 t : Vec F S256x2 .f32) (ix2 p q) = (V m c main_v2 : S8192x2.Idx → Elt F .f32) (ix2 (rowOf t p) q) := by
  unfold iblk
  rw [View.read_apply]
  show V m c main_v2 _ = V m c main_v2 _
  congr 1
  funext a
  apply Fin.ext
  match a with
  | ⟨0, _⟩ => show win0_2.index t 0 * 256 + 1 * p.val = 256 * (t.val / 8) + p.val; rw [(idx_facts t).2.2.1.1]; omega
  | ⟨1, _⟩ => show win0_2.index t 1 * 2 + 1 * q.val = q.val; rw [(idx_facts t).2.2.1.2]; omega

theorem upblk_apply (c : Dev nD) (t : Fin cfg0.N) (l : Fin 1024) (k : Fin 3072) :
    (iblk m c 3 t : Vec F S1x1024x3072 .bf16) (ix3 (0 : Fin 1) l k)
      = (V m c main_v3 : S8x1024x3072.Idx → Elt F .bf16) (ix3 (expertOf t) l k) := by
  unfold iblk
  rw [View.read_apply]
  show V m c main_v3 _ = V m c main_v3 _
  congr 1
  funext a
  apply Fin.ext
  match a with
  | ⟨0, _⟩ => show win0_3.index t 0 * 1 + 1 * 0 = t.val % 8; rw [(idx_facts t).2.2.2.1.1]; omega
  | ⟨1, _⟩ => show win0_3.index t 1 * 1024 + 1 * l.val = l.val; rw [(idx_facts t).2.2.2.1.2.1]; omega
  | ⟨2, _⟩ => show win0_3.index t 2 * 3072 + 1 * k.val = k.val; rw [(idx_facts t).2.2.2.1.2.2]; omega

theorem dnblk_apply (c : Dev nD) (t : Fin cfg0.N) (k : Fin 3072) (j : Fin 1024) :
    (iblk m c 4 t : Vec F S1x3072x1024 .bf16) (ix3 (0 : Fin 1) k j)
      = (V m c main_v4 : S8x3072x1024.Idx → Elt F .bf16) (ix3 (expertOf t) k j) := by
  unfold iblk
  rw [View.read_apply]
  show V m c main_v4 _ = V m c main_v4 _
  congr 1
  funext a
  apply Fin.ext
  match a with
  | ⟨0, _⟩ => show win0_4.index t 0 * 1 + 1 * 0 = t.val % 8; rw [(idx_facts t).2.2.2.2.1.1]; omega
  | ⟨1, _⟩ => show win0_4.index t 1 * 3072 + 1 * k.val = k.val; rw [(idx_facts t).2.2.2.2.1.2.1]; omega
  | ⟨2, _⟩ => show win0_4.index t 2 * 1024 + 1 * j.val = j.val; rw [(idx_facts t).2.2.2.2.1.2.2]; omega

end Cert.KernelIdeal.Blocks

end
-- ==== Proof.KerValue.lean ====
/-
  What the kernel's result holds after the run, as one function of the arguments.

  Within a token tile the eight grid points run through the experts in order; the accumulator after the point of
  expert `e` holds, at row `p` and column `j`, the first `e + 1` experts' contributions to token `256·tile + p` added in
  order onto the zero word (by induction along the grid, each step the body's arithmetic at one element). The point of
  the last expert copies the accumulator to the output block, the only write-back of that tile, and the 32 tiles' blocks
  cover the [8192, 1024] array; the one host line after the region reshapes it to [4, 2048, 1024].
-/
import proofs.«176671_j46145128628717_1_alg».proof.Proof.KerPayload
import proofs.«176671_j46145128628717_1_alg».proof.Proof.KerPieces
import proofs.«176671_j46145128628717_1_alg».proof.Proof.KerBlocks

set_option maxRecDepth 16384

noncomputable section

namespace Cert.KernelIdeal.KerValue

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Blocks (rowOf expertOf)

variable (m : (ℓ : Loc nD τ sig) → Buf (Elt Ideal) ℓ) (ρ : Dev nD → PrngReg)

/-! ## The arguments as the two- and three-axis arrays the mathematics is stated over -/

abbrev xs (c : Dev nD) : S8192x1024.Idx → EReal :=
  shapeCast S8192x1024 (m ((c.tc : Thread nD τ).loc main_arg0)) shapeCasts_S4x2048x1024_S8192x1024
abbrev ids (c : Dev nD) : S8192x2.Idx → BitVec 32 :=
  shapeCast S8192x2 (m ((c.tc : Thread nD τ).loc main_arg1)) shapeCasts_S4x2048x2_S8192x2
abbrev wts (c : Dev nD) : S8192x2.Idx → EReal :=
  shapeCast S8192x2 (m ((c.tc : Thread nD τ).loc main_arg2)) shapeCasts_S4x2048x2_S8192x2
abbrev up (c : Dev nD) : S8x1024x3072.Idx → EReal := m ((c.tc : Thread nD τ).loc main_arg3)
abbrev dn (c : Dev nD) : S8x3072x1024.Idx → EReal := m ((c.tc : Thread nD τ).loc main_arg4)

/-- The first `n` experts' contributions over these arrays. -/
abbrev partialAt (c : Dev nD) (n : ℕ) (h : n ≤ 8) : Fin 8192 → Fin 1024 → EReal :=
  Cert.Moe.partialOut (xs m c) (ids m c) (wts m c) (up m c) (dn m c) n h

theorem partialAt_congr (c : Dev nD) {n n' : ℕ} (e : n = n') (h : n ≤ 8) (h' : n' ≤ 8) {r r' : Fin 8192} (er : r = r') (j : Fin 1024) :
    partialAt m c n h r j = partialAt m c n' h' r' j := by
  subst e; subst er; rfl

/-- The two-axis array the region leaves. -/
abbrev G (c : Dev nD) : S8192x1024.Idx → EReal := Cert.Moe.out2 (xs m c) (ids m c) (wts m c) (up m c) (dn m c)

/-! ## One grid point -/

/-- The expert coordinate of point `t`. -/
theorem coord1 : ∀ t : Fin cfg0.N, (grid0.coords t 1).val = t.val % 8 :=
  (by decide +kernel : ∀ t : Fin grid0.N, (grid0.coords t 1).val = t.val % 8)

/-- Over the point's blocks, a token's contribution is the whole arrays' at the token's global row and the point's
    expert. -/
theorem term_eq (c : Dev nD) (t : Fin cfg0.N) (p : Fin 256) (j : Fin 1024) :
    Cert.Moe.contrib (fun l : Fin 1024 => (iblk m c 0 t : Vec Ideal S256x1024 .f32) (ix2 p l))
        (fun (l : Fin 1024) (k : Fin 3072) => (iblk m c 3 t : Vec Ideal S1x1024x3072 .bf16) (ix3 (0 : Fin 1) l k))
        (fun (k : Fin 3072) (j : Fin 1024) => (iblk m c 4 t : Vec Ideal S1x3072x1024 .bf16) (ix3 (0 : Fin 1) k j))
        (fun q : Fin 2 => (iblk m c 1 t : Vec Ideal S256x2 .i32) (ix2 p q))
        (fun q : Fin 2 => (iblk m c 2 t : Vec Ideal S256x2 .f32) (ix2 p q)) (BitVec.ofNat 32 (grid0.coords t 1).val) j
      = Cert.Moe.term (xs m c) (ids m c) (wts m c) (up m c) (dn m c) (expertOf t) (rowOf t p) j := by
  have e1 : (fun l : Fin 1024 => (iblk m c 0 t : Vec Ideal S256x1024 .f32) (ix2 p l)) = fun l => xs m c (ix2 (rowOf t p) l) :=
    funext fun l => (Blocks.xblk_apply m c t p l).trans (congrFun (Blocks.V_xs m c) _)
  have e2 : (fun (l : Fin 1024) (k : Fin 3072) => (iblk m c 3 t : Vec Ideal S1x1024x3072 .bf16) (ix3 (0 : Fin 1) l k))
      = fun l k => up m c (ix3 (expertOf t) l k) :=
    funext fun l => funext fun k => (Blocks.upblk_apply m c t l k).trans (congrFun (Blocks.V_up m c) _)
  have e3 : (fun (k : Fin 3072) (j : Fin 1024) => (iblk m c 4 t : Vec Ideal S1x3072x1024 .bf16) (ix3 (0 : Fin 1) k j))
      = fun k j => dn m c (ix3 (expertOf t) k j) :=
    funext fun k => funext fun j => (Blocks.dnblk_apply m c t k j).trans (congrFun (Blocks.V_dn m c) _)
  have e4 : (fun q : Fin 2 => (iblk m c 1 t : Vec Ideal S256x2 .i32) (ix2 p q)) = fun q => ids m c (ix2 (rowOf t p) q) :=
    funext fun q => (Blocks.idsblk_apply m c t p q).trans (congrFun (Blocks.V_ids m c) _)
  have e5 : (fun q : Fin 2 => (iblk m c 2 t : Vec Ideal S256x2 .f32) (ix2 p q)) = fun q => wts m c (ix2 (rowOf t p) q) :=
    funext fun q => (Blocks.wsblk_apply m c t p q).trans (congrFun (Blocks.V_ws m c) _)
  rw [e1, e2, e3, e4, e5, coord1 t]
  rfl

/-- One step of the accumulation: over an accumulator holding the first `n` experts' contributions of the tile's tokens,
    the point of expert `n` stores the first `n + 1`. -/
theorem step (c : Dev nD) (t : Fin cfg0.N) (acc : Vec Ideal S256x1024 .f32) (n : ℕ) (hn : n + 1 ≤ 8) (hnt : t.val % 8 = n)
    (hacc : ∀ (p : Fin 256) (j : Fin 1024), acc (ix2 p j) = partialAt m c n (Nat.le_of_succ_le hn) (rowOf t p) j)
    (p : Fin 256) (j : Fin 1024) :
    k0_pay2 (F := Ideal) (grid0.coords t) (iblk m c 1 t) (iblk m c 2 t) (iblk m c 0 t) (iblk m c 3 t) (iblk m c 4 t) acc (ix2 p j)
      = partialAt m c (n + 1) hn (rowOf t p) j := by
  refine (Payload.pay2_apply (grid0.coords t) (iblk m c 1 t) (iblk m c 2 t) (iblk m c 0 t) (iblk m c 3 t) (iblk m c 4 t) acc p j).trans ?_
  rw [hacc p j, term_eq m c t p j]
  subst hnt
  rfl

/-! ## Along the grid -/

/-- After point `t` the accumulator holds the contributions of the experts up to the point's own. -/
theorem acc_eq (c : Dev nD) : ∀ (k : ℕ) (t : Fin cfg0.N), t.val = k → ∀ (p : Fin 256) (j : Fin 1024),
    (outsAt0 m c t.val t.isLt).2 (ix2 p j)
      = partialAt m c (t.val % 8 + 1) (Nat.succ_le_of_lt (Nat.mod_lt _ (by decide))) (rowOf t p) j := by
  intro k
  induction k using Nat.strong_induction_on with
  | _ k ih =>
    intro t htk p j
    have hN : t.val < 256 := lt_of_lt_of_eq t.isLt (show cfg0.N = 256 from N_0)
    by_cases h0 : t.val % 8 = 0
    · have h1 : ¬t.val % 8 = 7 := by omega
      rw [outsAt0_A m c t h0 h1]
      dsimp only
      refine (congrFun (Pieces.acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) (ix2 p j)).trans ?_
      exact step m c t (k0_pay1 (F := Ideal)) (t.val % 8) _ rfl
        (fun p j => (Payload.pay1_apply (ix2 p j)).trans (by
          have : partialAt m c (t.val % 8) (Nat.le_of_succ_le (Nat.succ_le_of_lt (Nat.mod_lt _ (by decide)))) (rowOf t p) j
              = partialAt m c 0 (Nat.zero_le 8) (rowOf t p) j := partialAt_congr m c h0 _ _ rfl j
          rw [this]; rfl)) p j
    · have hpos : 0 < t.val := Nat.pos_of_ne_zero fun hz => h0 (by rw [hz])
      have hlt : t.val - 1 < cfg0.N := Nat.lt_of_le_of_lt (Nat.sub_le _ _) t.isLt
      have hprev := ih (t.val - 1) (by omega) ⟨t.val - 1, hlt⟩ rfl
      have hacc : ∀ (p : Fin 256) (j : Fin 1024), (outsAt0 m c (t.val - 1) hlt).2 (ix2 p j)
          = partialAt m c (t.val % 8) (Nat.le_of_succ_le (Nat.succ_le_of_lt (Nat.mod_lt _ (by decide)))) (rowOf t p) j := fun p j =>
        (hprev p j).trans (partialAt_congr m c (by dsimp only; omega) _ _ (Fin.ext (by dsimp only [rowOf]; omega)) j)
      by_cases h1 : t.val % 8 = 7
      · rw [outsAt0_C m c t h0 h1]
        dsimp only
        refine (congrFun (Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) hlt).2) (ix2 p j)).trans ?_
        exact step m c t _ (t.val % 8) _ rfl hacc p j
      · rw [outsAt0_B m c t h0 h1]
        dsimp only
        refine (congrFun (Pieces.acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) hlt).2) (ix2 p j)).trans ?_
        exact step m c t _ (t.val % 8) _ rfl hacc p j

end Cert.KernelIdeal.KerValue

end
-- ==== Proof.KerRun.lean ====
/-
  The kernel's run read back: the result array at the mathematics' function of the arguments.

  A token tile's one write-back, at its last expert's point, writes the tile's rows of the eight experts' ordered sum;
  every row of the [8192, 1024] array lies in exactly such a block, so the array ends at that function everywhere, and
  the host's reshape after the region carries it to the [4, 2048, 1024] result.
-/
import proofs.«176671_j46145128628717_1_alg».proof.Proof.KerValue

set_option maxRecDepth 16384

noncomputable section

namespace Cert.KernelIdeal.KerValue

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Blocks (rowOf expertOf idx_facts)

variable (m : (ℓ : Loc nD τ sig) → Buf (Elt Ideal) ℓ) (ρ : Dev nD → PrngReg)

/-- Row `p`, column `j` of point `t`'s output block sits at the tile's global row and the same column of the array. -/
theorem outblk_emb (t : Fin cfg0.N) (p : Fin 256) (j : Fin 1024) :
    ((cfg0.win 5).blk t).view.emb (ix2 p j) = (ix2 (rowOf t p) j : S8192x1024.Idx) := by
  funext a
  apply Fin.ext
  match a with
  | ⟨0, _⟩ => show win0_5.index t 0 * 256 + 1 * p.val = 256 * (t.val / 8) + p.val; rw [(idx_facts t).2.2.2.2.2.1]; omega
  | ⟨1, _⟩ => show win0_5.index t 1 * 1024 + 1 * j.val = j.val; rw [(idx_facts t).2.2.2.2.2.2]; omega

/-- What a write-back writes is its block of the whole function. -/
theorem flushed_eq (c : Dev nD) (t : Fin cfg0.N) (hf : (cfg0.win 5).flush t = true) :
    (dats m 0 c).flushed 5 t = ((cfg0.win 5).blk t).view.read (Elt Ideal) (G m c) := by
  have h7 : t.val % 8 = 7 := (flush0_5 t).mp hf
  have h0 : ¬t.val % 8 = 0 := by omega
  have hlt : t.val - 1 < cfg0.N := Nat.lt_of_le_of_lt (Nat.sub_le _ _) t.isLt
  show (cfg0.win 5).cut (grid0.coords t) ((dats m 0 c).after 5 t) = _
  rw [after0_5, outsAt0_C m c t h0 h7]
  dsimp only
  funext y
  obtain ⟨p, j, rfl⟩ : ∃ (p : Fin 256) (j : Fin 1024), y = ix2 p j := ⟨y 0, y 1, eq_ix2 y⟩
  rw [View.read_apply, outblk_emb t p j]
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h7) (iblk m c 0 t) (iblk m c 1 t) (iblk m c 2 t) (iblk m c 3 t) (iblk m c 4 t) (outsAt0 m c (t.val - 1) hlt).2) (ix2 p j)).trans ?_
  have hpos : 0 < t.val := Nat.pos_of_ne_zero fun hz => h0 (by rw [hz])
  have hprev := acc_eq m c (t.val - 1) ⟨t.val - 1, hlt⟩ rfl
  refine (step m c t _ (t.val % 8) (Nat.succ_le_of_lt (Nat.mod_lt _ (by decide))) rfl (fun p j =>
    (hprev p j).trans (partialAt_congr m c (by dsimp only; omega) _ _ (Fin.ext (by dsimp only [rowOf]; omega)) j)) p j).trans ?_
  exact partialAt_congr m c (by omega) _ _ rfl j

/-- An index of the array lies in point `t`'s block iff each coordinate lies in the block's range on its axis. -/
theorem mem_blk (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v5).slice (win0_5.rect t)).set ↔ _
  rw [View.set_slice_whole, Rect.mem_set_unit]
  exact Iff.rfl

/-- Every row of the array is in the block its token tile's last point writes back. -/
theorem cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 256 := N_0
  refine ⟨⟨8 * ((i 0).val / 256) + 7, by omega⟩, (flush0_5 _).mpr (by dsimp only; omega), ?_⟩
  rw [mem_blk]
  have hx := (idx_facts ⟨8 * ((i 0).val / 256) + 7, by omega⟩).2.2.2.2.2
  intro a
  match a with
  | ⟨0, _⟩ =>
    show win0_5.index _ 0 * 256 ≤ (i 0).val ∧ (i 0).val < win0_5.index _ 0 * 256 + 256
    rw [hx.1]; dsimp only; omega
  | ⟨1, _⟩ =>
    show win0_5.index _ 1 * 1024 ≤ (i 1).val ∧ (i 1).val < win0_5.index _ 1 * 1024 + 1024
    rw [hx.2]; omega

/-- The region's result array after the run. -/
theorem final (c : Dev nD) : (dats m 0 c).arrAt 5 cfg0.N = G m c :=
  (dats m 0 c).arrAt_eq_of_cover 5 (G m c) (flushed_eq m c) cover

/-- The program's result: the [8192, 1024] array reshaped to [4, 2048, 1024]. -/
abbrev result (c : Dev nD) : Buf (Elt Ideal) ((c.tc : Thread nD τ).loc main_v6) :=
  shapeCast S4x2048x1024 (G m c) shapeCasts_S8192x1024_S4x2048x1024

/-- The host line after the region, read. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5) = G m c :=
    (Pipeline.withArrays_arr spec0 launch0.win.arr_inj c _ _ 5).trans (final m c)
  rw [e]
  rfl

/-- The run, read: the result at the mathematics' function of the arguments, the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerValue

end
-- ==== Proof.LibHostDot.lean ====
/-
  The host's matrix product `A B` read at a row and a column.

  For an `M × K` matrix `A` and a `K × N` matrix `B`, the host's `dot_general` contracting the left operand's
  columns with the right operand's rows is, on the extended reals, `Σₜ A[p, t] · B[t, q]` at row `p` and column
  `q`: the sum over the one-axis contraction index is re-indexed by that axis's coordinate `t`, which sits in the
  second place of the left operand's index and in the first place of the right operand's.
-/
import Idealize.ShloMosaic.PureOps.Ideal.Laws
import Idealize.ShloMosaic.Lib.ValueIdx

noncomputable section

open scoped BigOperators

namespace Idealize.ShloMosaic.HostDot

open Idealize.ShloMosaic Idealize.ShloMosaic.ValueIdx

/-- `A B` on the host, at row `p` and column `q`, is `Σₜ A[p, t] · B[t, q]`. -/
theorem dotGeneral_nn_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    Host.dotGeneral (⟨[1], [0], [0], [1], [], [], w⟩ : DotDims ⟨2, ![M, K]⟩ ⟨2, ![K, N]⟩ ⟨2, ![M, N]⟩) prec A B (ix2 p q)
      = ∑ t : Fin K, A (ix2 p t) * B (ix2 t q) := by
  show FloatOps.dotGeneral _ prec _ A B (ix2 p q) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

end Idealize.ShloMosaic.HostDot

end
-- ==== Proof.RefExpert.lean ====
/-
  One expert's share of the reference, read at one output element.

  For each expert the reference slices the expert's plane out of the two weight arrays, multiplies the tokens through
  both matrices on the host, sums the weights of the routes naming the expert from the zero word, broadcasts that
  per-token sum along the row and multiplies. Read on the extended reals at token `t`, column `j` this is the
  mathematics' contribution of that expert (the host's matrix products are plain sums; the reduce's initial zero
  adds nothing).
-/
import proofs.«176671_j46145128628717_1_alg».proof.Proof.Gen.ReferenceIdeal
import proofs.«176671_j46145128628717_1_alg».proof.Proof.MoeSpec
import proofs.«176671_j46145128628717_1_alg».proof.Proof.LibHostDot
import Idealize.ShloMosaic.Lib.Pipeline.Value
import Idealize.ShloMosaic.Lib.ValueLayout

noncomputable section

open scoped BigOperators

namespace Cert.ReferenceIdeal.RefValue

open Cert.ReferenceIdeal Cert.ReferenceIdeal.Gen Idealize.ShloMosaic Idealize.ShloMosaic.ValueIdx

/-- The host's sum over the two routes, from the zero word, at token `t`. -/
theorem reduce_apply (y : FVec Ideal S8192x2 .f32) (t : Fin 8192) :
    Host.reduceAdd (F := Ideal) y (constant (F := Ideal) S_ .f32 0x00000000#32) reducesTo_S8192x2_S8192_d1 h_S_ (ix1 t)
      = ∑ q : Fin 2, y (ix2 t q) := by
  simp only [Host.reduceAdd, Ideal.hostReduceAdd_def]
  rw [Ideal.hostReduceAdd_single reducesTo_S8192x2_S8192_d1 (by decide)]
  have hi : (constant (F := Ideal) S_ .f32 0x00000000#32) (Shape.Idx.first h_S_) = 0 := Ideal.ofBits_zero_f32
  rw [hi, zero_add]
  exact Finset.sum_congr rfl fun k _ => congrArg y (funext fun a => Fin.ext (by match a with | ⟨0, _⟩ => rfl | ⟨1, _⟩ => rfl))

/-- A per-token vector broadcast to a column and then along the row, at `(t, j)`, is the vector at `t`. -/
theorem rowBroadcast_apply (v : FVec Ideal S8192 .f32) (t : Fin 8192) (j : Fin 1024) :
    broadcastInDim S8192x1024 ![0, 1] bcast_S8192x1_S8192x1024_0_1 (broadcastInDim S8192x1 ![0] bcast_S8192_S8192x1_0 v) (ix2 t j)
      = v (ix1 t) := by
  refine (broadcastInDim_apply _ bcast_S8192x1_S8192x1024_0_1 _ (ix2 t j) (ix2 t (0 : Fin 1)) (fun a => match a with
    | ⟨0, _⟩ => by show t.val = if (8192 : Nat) = 1 then 0 else t.val; rw [if_neg (by decide)]
    | ⟨1, _⟩ => by show 0 = if (1 : Nat) = 1 then 0 else j.val; rw [if_pos rfl])).trans ?_
  exact broadcastInDim_apply _ bcast_S8192_S8192x1_0 v (ix2 t (0 : Fin 1)) (ix1 t) (fun a => match a with
    | ⟨0, _⟩ => by show t.val = if (8192 : Nat) = 1 then 0 else t.val; rw [if_neg (by decide)])

/-- Plane `o` of the first weight array, as a matrix, at `(l, k)`. -/
theorem upPlane_apply (o : ℕ) (ho : o < 8) (hs : S8x1024x3072.Slices ![o, 0, 0] S1x1024x3072) (up : FVec Ideal S8x1024x3072 .f32)
    (l : Fin 1024) (k : Fin 3072) :
    shapeCast S1024x3072 (extractStridedSlice S1x1024x3072 ![o, 0, 0] up hs) shapeCasts_S1x1024x3072_S1024x3072 (ix2 l k)
      = up (ix3 (⟨o, ho⟩ : Fin 8) l k) := by
  refine (shapeCast_1ab_ab_apply _ shapeCasts_S1x1024x3072_S1024x3072 l k).trans ?_
  exact extractStridedSlice_apply ![o, 0, 0] up hs (ix3 (0 : Fin 1) l k) (ix3 (⟨o, ho⟩ : Fin 8) l k) (fun a => match a with
    | ⟨0, _⟩ => by show o = o + 0; omega
    | ⟨1, _⟩ => by show l.val = 0 + l.val; omega
    | ⟨2, _⟩ => by show k.val = 0 + k.val; omega)

/-- Plane `o` of the second weight array, as a matrix, at `(k, j)`. -/
theorem dnPlane_apply (o : ℕ) (ho : o < 8) (hs : S8x3072x1024.Slices ![o, 0, 0] S1x3072x1024) (dn : FVec Ideal S8x3072x1024 .f32)
    (k : Fin 3072) (j : Fin 1024) :
    shapeCast S3072x1024 (extractStridedSlice S1x3072x1024 ![o, 0, 0] dn hs) shapeCasts_S1x3072x1024_S3072x1024 (ix2 k j)
      = dn (ix3 (⟨o, ho⟩ : Fin 8) k j) := by
  refine (shapeCast_1ab_ab_apply _ shapeCasts_S1x3072x1024_S3072x1024 k j).trans ?_
  exact extractStridedSlice_apply ![o, 0, 0] dn hs (ix3 (0 : Fin 1) k j) (ix3 (⟨o, ho⟩ : Fin 8) k j) (fun a => match a with
    | ⟨0, _⟩ => by show o = o + 0; omega
    | ⟨1, _⟩ => by show k.val = 0 + k.val; omega
    | ⟨2, _⟩ => by show j.val = 0 + j.val; omega)

/-- Expert `o`'s share of the reference at token `t`, column `j`. -/
theorem expert_apply (o : ℕ) (ho : o < 8) (hsU : S8x1024x3072.Slices ![o, 0, 0] S1x1024x3072)
    (hsW : S8x3072x1024.Slices ![o, 0, 0] S1x3072x1024) (xs : FVec Ideal S8192x1024 .f32) (ids : IVec S8192x2 32)
    (ws : FVec Ideal S8192x2 .f32) (up : FVec Ideal S8x1024x3072 .f32) (dn : FVec Ideal S8x3072x1024 .f32) (t : Fin 8192) (j : Fin 1024) :
    mulf (Host.dotGeneral (F := Ideal) dot_S8192x3072_S3072x1024_S8192x1024_1_0_0_1_n_n none
          (Host.dotGeneral (F := Ideal) dot_S8192x1024_S1024x3072_S8192x3072_1_0_0_1_n_n none xs
            (shapeCast S1024x3072 (extractStridedSlice S1x1024x3072 ![o, 0, 0] up hsU) shapeCasts_S1x1024x3072_S1024x3072))
          (shapeCast S3072x1024 (extractStridedSlice S1x3072x1024 ![o, 0, 0] dn hsW) shapeCasts_S1x3072x1024_S3072x1024))
        (broadcastInDim S8192x1024 ![0, 1] bcast_S8192x1_S8192x1024_0_1
          (broadcastInDim S8192x1 ![0] bcast_S8192_S8192x1_0
            (Host.reduceAdd (F := Ideal)
              (select (cmpi .eq ids (broadcastInDim S8192x2 ![] bcast_S_S8192x2 (constantI S_ 32 (BitVec.ofNat 32 o)))) ws
                (broadcastInDim S8192x2 ![] bcast_S_S8192x2 (constant (F := Ideal) S_ .f32 0x00000000#32)))
              (constant (F := Ideal) S_ .f32 0x00000000#32) reducesTo_S8192x2_S8192_d1 h_S_))) (ix2 t j)
      = Cert.Moe.term xs ids ws up dn ⟨o, ho⟩ t j := by
  rw [mulf_apply]
  unfold Cert.Moe.term Cert.Moe.contrib
  congr 1
  · refine (HostDot.dotGeneral_nn_apply dot_S8192x3072_S3072x1024_S8192x1024_1_0_0_1_n_n_wf none _ _ t j).trans ?_
    unfold Cert.Moe.expertOut
    refine Finset.sum_congr rfl fun k _ => ?_
    congr 1
    · refine (HostDot.dotGeneral_nn_apply dot_S8192x1024_S1024x3072_S8192x3072_1_0_0_1_n_n_wf none _ _ t k).trans ?_
      refine Finset.sum_congr rfl fun l _ => ?_
      congr 1
      exact upPlane_apply o ho hsU up l k
    · exact dnPlane_apply o ho hsW dn k j
  · refine (rowBroadcast_apply _ t j).trans ?_
    refine (reduce_apply _ t).trans ?_
    unfold Cert.Moe.gateSum
    exact Finset.sum_congr rfl fun q _ => rfl

end Cert.ReferenceIdeal.RefValue

end
-- ==== Proof.RefValue.lean ====
/-
  The reference's result, read back: the same function of the arguments as the kernel's.

  The reference starts from the zero array and adds the eight experts' shares in order, each share the expert's
  contribution at every token and column, and reshapes the [8192, 1024] sum to [4, 2048, 1024].
-/
import proofs.«176671_j46145128628717_1_alg».proof.Proof.Gen.ReferenceIdeal.Run
import proofs.«176671_j46145128628717_1_alg».proof.Proof.RefExpert

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.ValueIdx

/-- All eight experts, written out: the zero word, then each expert's contribution added in order. -/
theorem partialOut_eight (xs : FVec Ideal S8192x1024 .f32) (ids : IVec S8192x2 32) (ws : FVec Ideal S8192x2 .f32)
    (up : FVec Ideal S8x1024x3072 .f32) (dn : FVec Ideal S8x3072x1024 .f32) (t : Fin 8192) (j : Fin 1024) :
    Cert.Moe.partialOut xs ids ws up dn 8 (Nat.le_refl 8) t j
      = Cert.Moe.zeroWord + Cert.Moe.term xs ids ws up dn ⟨0, by decide⟩ t j
          + Cert.Moe.term xs ids ws up dn ⟨1, by decide⟩ t j
          + Cert.Moe.term xs ids ws up dn ⟨2, by decide⟩ t j
          + Cert.Moe.term xs ids ws up dn ⟨3, by decide⟩ t j
          + Cert.Moe.term xs ids ws up dn ⟨4, by decide⟩ t j
          + Cert.Moe.term xs ids ws up dn ⟨5, by decide⟩ t j
          + Cert.Moe.term xs ids ws up dn ⟨6, by decide⟩ t j
          + Cert.Moe.term xs ids ws up dn ⟨7, by decide⟩ t j := rfl

/-- The reference's result is the reshape of the eight experts' ordered sum over the reshaped arguments. -/
theorem res_eq (m : (ℓ : Loc nD τ sig) → Buf (Elt Ideal) ℓ) (c : Dev nD) :
    Value.res_main_v124 (F := Ideal) m c
      = shapeCast S4x2048x1024 (Cert.Moe.out2
          (shapeCast S8192x1024 (m ((c.tc : Thread nD τ).loc main_arg0)) shapeCasts_S4x2048x1024_S8192x1024)
          (shapeCast S8192x2 (m ((c.tc : Thread nD τ).loc main_arg1)) shapeCasts_S4x2048x2_S8192x2)
          (shapeCast S8192x2 (m ((c.tc : Thread nD τ).loc main_arg2)) shapeCasts_S4x2048x2_S8192x2)
          (m ((c.tc : Thread nD τ).loc main_arg3)) (m ((c.tc : Thread nD τ).loc main_arg4))) shapeCasts_S8192x1024_S4x2048x1024 := by
  unfold Value.res_main_v124
  refine congrArg (fun v => shapeCast S4x2048x1024 v shapeCasts_S8192x1024_S4x2048x1024) ?_
  funext i
  obtain ⟨t, j, rfl⟩ : ∃ (t : Fin 8192) (j : Fin 1024), i = ix2 t j := ⟨i 0, i 1, eq_ix2 i⟩
  simp only [addf_apply]
  refine Eq.trans ?_ (partialOut_eight _ _ _ _ _ t j).symm
  exact (congrArg₂ (· + ·) (congrArg₂ (· + ·) (congrArg₂ (· + ·) (congrArg₂ (· + ·) (congrArg₂ (· + ·) (congrArg₂ (· + ·) (congrArg₂ (· + ·) (congrArg₂ (· + ·) rfl
      (expert_apply 0 (by decide) slices_S8x1024x3072_S1x1024x3072_0_0_0 slices_S8x3072x1024_S1x3072x1024_0_0_0 _ _ _ _ _ t j))
      (expert_apply 1 (by decide) slices_S8x1024x3072_S1x1024x3072_1_0_0 slices_S8x3072x1024_S1x3072x1024_1_0_0 _ _ _ _ _ t j))
      (expert_apply 2 (by decide) slices_S8x1024x3072_S1x1024x3072_2_0_0 slices_S8x3072x1024_S1x3072x1024_2_0_0 _ _ _ _ _ t j))
      (expert_apply 3 (by decide) slices_S8x1024x3072_S1x1024x3072_3_0_0 slices_S8x3072x1024_S1x3072x1024_3_0_0 _ _ _ _ _ t j))
      (expert_apply 4 (by decide) slices_S8x1024x3072_S1x1024x3072_4_0_0 slices_S8x3072x1024_S1x3072x1024_4_0_0 _ _ _ _ _ t j))
      (expert_apply 5 (by decide) slices_S8x1024x3072_S1x1024x3072_5_0_0 slices_S8x3072x1024_S1x3072x1024_5_0_0 _ _ _ _ _ t j))
      (expert_apply 6 (by decide) slices_S8x1024x3072_S1x1024x3072_6_0_0 slices_S8x3072x1024_S1x3072x1024_6_0_0 _ _ _ _ _ t j))
      (expert_apply 7 (by decide) slices_S8x1024x3072_S1x1024x3072_7_0_0 slices_S8x3072x1024_S1x3072x1024_7_0_0 _ _ _ _ _ t j))

end Cert.ReferenceIdeal.RefValue

end
-- ==== Proof.lean ====
/-
  A mixture-of-experts layer: every token's row goes through every expert's two matrices, each expert's output is
  scaled by the token's combined routing weight for that expert (the sum of the weights of the token's routes that
  name the expert; zero if none does), and the eight scaled outputs are added in expert order onto zeros.

  The kernel does this on a 32 × 8 grid, token tile outermost: at each point it multiplies a 256-token tile through
  one expert's matrices and adds the scaled result into an accumulator that it resets at a tile's first expert and
  copies to the output block at its last. The reference does it on the whole arrays, expert by expert. On the extended
  reals a change of float format is the identity and both matrix products are plain sums, so both programs compute,
  at token `t` and column `j`, the same ordered sum `(((0 + c₀) + c₁) + …) + c₇` of the same contributions
  `cₑ = (Σₖ (Σₗ x[t,l] · up[e,l,k]) · down[e,k,j]) · Σ_q [idx[t,q] = e] w[t,q]`; no law of arithmetic beyond
  `0 + a = a` for the route sum's initial zero is used, so the inputs' finiteness is not needed.

  The kernel's value is read off its frame run: the accumulator after each grid point by induction along the grid
  (KerValue), the one write-back per tile and the blocks' cover of the result array, then the reshape (KerRun). The
  reference's value is read off its run, one expert's share at a time (RefExpert, RefValue). The idealization
  rewrote nothing, so the kernel's idealized program is its own text read on the extended reals.
-/
import proofs.«176671_j46145128628717_1_alg».proof.Defs
import proofs.«176671_j46145128628717_1_alg».proof.Proof.Gen.Kernel
import proofs.«176671_j46145128628717_1_alg».proof.Proof.Gen.Kernel.Frame
import proofs.«176671_j46145128628717_1_alg».proof.Proof.Gen.KernelIdeal
import proofs.«176671_j46145128628717_1_alg».proof.Proof.Gen.KernelIdeal.Frame
import proofs.«176671_j46145128628717_1_alg».proof.Proof.Gen.ReferenceIdeal
import proofs.«176671_j46145128628717_1_alg».proof.Proof.Gen.ReferenceIdeal.Run
import proofs.«176671_j46145128628717_1_alg».proof.Proof.Gen.Pre_finite_inputs
import proofs.«176671_j46145128628717_1_alg».proof.Proof.KerRun
import proofs.«176671_j46145128628717_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both results are the reshape of the eight experts' ordered sum over the same reshaped arguments. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq m' c, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
